-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S8x4096x64 : Shape := ⟨3, ![8, 4096, 64]⟩
abbrev S8x64x4096 : Shape := ⟨3, ![8, 64, 4096]⟩
abbrev S8 : Shape := ⟨1, ![8]⟩
abbrev S16384 : Shape := ⟨1, ![16384]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S8x4096x64 : S_.BroadcastsInDim S8x4096x64 (![] : Fin 0 → Fin S8x4096x64.rank)
  reducesTo_S8x4096x64_S_d0_1_2 : S8x4096x64.ReducesTo [0, 1, 2] S_
  bcast_S_S8x64x4096 : S_.BroadcastsInDim S8x64x4096 (![] : Fin 0 → Fin S8x64x4096.rank)
  reducesTo_S8x64x4096_S_d0_1_2 : S8x64x4096.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S8x64x4096 1) : IVec S_ 1 :=
  let main_c_5 : IVec S_ 1 := constantI S_ 1 1#1
  let main_v17 : IVec S_ 1 := (fun x v => Host.reduce IntOp.andi x v reducesTo_S8x64x4096_S_d0_1_2 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S16384x4096 .f32) (main_arg1 : FVec F S16384x4096 .f32) (main_arg2 : FVec F S8x4096x64 .f32) (main_arg3 : FVec F S8x64x4096 .f32) (main_arg4 : FVec F S8 .f32) (main_arg5 : IVec S16384 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S8x4096x64 .f32 := Host.absf main_arg2
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  let main_v14 : FVec F S8x64x4096 .f32 := Host.absf main_arg3
  let main_cst_4 : FVec F S_ .f32 := constant S_ .f32 0x7F800000#32
  let main_v15 : FVec F S8x64x4096 .f32 := broadcastInDim S8x64x4096 ![] bcast_S_S8x64x4096 main_cst_4
  let main_v16 : IVec S8x64x4096 1 := cmpf .olt main_v14 main_v15
  fn_part1 (F := F) main_arg4 main_v13 main_v16
-- ==== Kernel.lean ====
abbrev S16384x4096 : Shape := ⟨2, ![16384, 4096]⟩
abbrev S8x4096x64 : Shape := ⟨3, ![8, 4096, 64]⟩
abbrev S8x64x4096 : Shape := ⟨3, ![8, 64, 4096]⟩
abbrev S8 : Shape := ⟨1, ![8]⟩
abbrev S16384 : Shape := ⟨1, ![16384]⟩
abbrev S16384x1 : Shape := ⟨2, ![16384, 1]⟩
abbrev S1x8 : Shape := ⟨2, ![1, 8]⟩
abbrev S16384x8 : Shape := ⟨2, ![16384, 8]⟩
abbrev S128x4096 : Shape := ⟨2, ![128, 4096]⟩
abbrev S128x8 : Shape := ⟨2, ![128, 8]⟩
abbrev S1x4096x64 : Shape := ⟨3, ![1, 4096, 64]⟩
abbrev S4096x64 : Shape := ⟨2, ![4096, 64]⟩
abbrev S1x64x4096 : Shape := ⟨3, ![1, 64, 4096]⟩
abbrev S64x4096 : Shape := ⟨2, ![64, 4096]⟩
abbrev S128x64 : Shape := ⟨2, ![128, 64]⟩
abbrev S128x1 : Shape := ⟨2, ![128, 1]⟩

abbrev nBuf : Space → Nat
  | .hbm => 19
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S8x4096x64, .f32⟩
  | .hbm, ⟨3, _⟩ => ⟨S8x64x4096, .f32⟩
  | .hbm, ⟨4, _⟩ => ⟨S8, .f32⟩
  | .hbm, ⟨5, _⟩ => ⟨S16384, .i32⟩
  | .hbm, ⟨6, _⟩ => ⟨S16384x1, .i32⟩
  | .hbm, ⟨7, _⟩ => ⟨S8, .i32⟩
  | .hbm, ⟨8, _⟩ => ⟨S1x8, .i32⟩
  | .hbm, ⟨9, _⟩ => ⟨S16384x8, .i32⟩
  | .hbm, ⟨10, _⟩ => ⟨S16384x8, .i32⟩
  | .hbm, ⟨11, _⟩ => ⟨S16384x8, .i1⟩
  | .hbm, ⟨12, _⟩ => ⟨S16384x8, .f32⟩
  | .hbm, ⟨13, _⟩ => ⟨S1x8, .f32⟩
  | .hbm, ⟨14, _⟩ => ⟨S16384x8, .f32⟩
  | .hbm, ⟨15, _⟩ => ⟨S16384x8, .f32⟩
  | .hbm, ⟨16, _⟩ => ⟨S8x4096x64, .bf16⟩
  | .hbm, ⟨17, _⟩ => ⟨S8x64x4096, .bf16⟩
  | .hbm, ⟨18, _⟩ => ⟨S16384x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x8, .f32⟩
  | .local _ .vmem, ⟨5, _⟩ => ⟨S128x8, .f32⟩
  | .local _ .vmem, ⟨6, _⟩ => ⟨S8x4096x64, .bf16⟩
  | .local _ .vmem, ⟨7, _⟩ => ⟨S8x64x4096, .bf16⟩
  | .local _ .vmem, ⟨8, _⟩ => ⟨S128x4096, .f32⟩
  | .local _ .vmem, ⟨9, _⟩ => ⟨S128x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x4096x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S16384_S16384x1_0 : S16384.BroadcastsInDim S16384x1 (![0] : Fin 1 → Fin S16384x1.rank)
  bcast_S8_S1x8_1 : S8.BroadcastsInDim S1x8 (![1] : Fin 1 → Fin S1x8.rank)
  bcast_S16384x1_S16384x8_0_1 : S16384x1.BroadcastsInDim S16384x8 (![0, 1] : Fin 2 → Fin S16384x8.rank)
  bcast_S1x8_S16384x8_0_1 : S1x8.BroadcastsInDim S16384x8 (![0, 1] : Fin 2 → Fin S16384x8.rank)
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  inb_S8x4096x64_S1x4096x64_0_0_0 : ∀ a, (![0, 0, 0] : Fin 3 → Nat) a + S1x4096x64.size a ≤ S8x4096x64.size a
  h_S1x4096x64 : 0 < S1x4096x64.numel
  shapeCasts_S1x4096x64_S4096x64 : S1x4096x64.ShapeCasts S4096x64
  inb_S8x64x4096_S1x64x4096_0_0_0 : ∀ a, (![0, 0, 0] : Fin 3 → Nat) a + S1x64x4096.size a ≤ S8x64x4096.size a
  h_S1x64x4096 : 0 < S1x64x4096.numel
  shapeCasts_S1x64x4096_S64x4096 : S1x64x4096.ShapeCasts S64x4096
  inb_S128x8_S128x1_0_0 : ∀ a, (![0, 0] : Fin 2 → Nat) a + S128x1.size a ≤ S128x8.size a
  h_S128x1 : 0 < S128x1.numel
  shapeCasts_S128x1_S128x1 : S128x1.ShapeCasts S128x1
  broadcasts_S128x1_S128x4096 : S128x1.Broadcasts S128x4096
  inb_S8x4096x64_S1x4096x64_1_0_0 : ∀ a, (![1, 0, 0] : Fin 3 → Nat) a + S1x4096x64.size a ≤ S8x4096x64.size a
  inb_S8x64x4096_S1x64x4096_1_0_0 : ∀ a, (![1, 0, 0] : Fin 3 → Nat) a + S1x64x4096.size a ≤ S8x64x4096.size a
  inb_S128x8_S128x1_0_1 : ∀ a, (![0, 1] : Fin 2 → Nat) a + S128x1.size a ≤ S128x8.size a
  inb_S8x4096x64_S1x4096x64_2_0_0 : ∀ a, (![2, 0, 0] : Fin 3 → Nat) a + S1x4096x64.size a ≤ S8x4096x64.size a
  inb_S8x64x4096_S1x64x4096_2_0_0 : ∀ a, (![2, 0, 0] : Fin 3 → Nat) a + S1x64x4096.size a ≤ S8x64x4096.size a
  inb_S128x8_S128x1_0_2 : ∀ a, (![0, 2] : Fin 2 → Nat) a + S128x1.size a ≤ S128x8.size a
  inb_S8x4096x64_S1x4096x64_3_0_0 : ∀ a, (![3, 0, 0] : Fin 3 → Nat) a + S1x4096x64.size a ≤ S8x4096x64.size a
  inb_S8x64x4096_S1x64x4096_3_0_0 : ∀ a, (![3, 0, 0] : Fin 3 → Nat) a + S1x64x4096.size a ≤ S8x64x4096.size a
  inb_S128x8_S128x1_0_3 : ∀ a, (![0, 3] : Fin 2 → Nat) a + S128x1.size a ≤ S128x8.size a
  inb_S8x4096x64_S1x4096x64_4_0_0 : ∀ a, (![4, 0, 0] : Fin 3 → Nat) a + S1x4096x64.size a ≤ S8x4096x64.size a
  inb_S8x64x4096_S1x64x4096_4_0_0 : ∀ a, (![4, 0, 0] : Fin 3 → Nat) a + S1x64x4096.size a ≤ S8x64x4096.size a
  inb_S128x8_S128x1_0_4 : ∀ a, (![0, 4] : Fin 2 → Nat) a + S128x1.size a ≤ S128x8.size a
  inb_S8x4096x64_S1x4096x64_5_0_0 : ∀ a, (![5, 0, 0] : Fin 3 → Nat) a + S1x4096x64.size a ≤ S8x4096x64.size a
  inb_S8x64x4096_S1x64x4096_5_0_0 : ∀ a, (![5, 0, 0] : Fin 3 → Nat) a + S1x64x4096.size a ≤ S8x64x4096.size a
  inb_S128x8_S128x1_0_5 : ∀ a, (![0, 5] : Fin 2 → Nat) a + S128x1.size a ≤ S128x8.size a
  inb_S8x4096x64_S1x4096x64_6_0_0 : ∀ a, (![6, 0, 0] : Fin 3 → Nat) a + S1x4096x64.size a ≤ S8x4096x64.size a
  inb_S8x64x4096_S1x64x4096_6_0_0 : ∀ a, (![6, 0, 0] : Fin 3 → Nat) a + S1x64x4096.size a ≤ S8x64x4096.size a
  inb_S128x8_S128x1_0_6 : ∀ a, (![0, 6] : Fin 2 → Nat) a + S128x1.size a ≤ S128x8.size a
  inb_S8x4096x64_S1x4096x64_7_0_0 : ∀ a, (![7, 0, 0] : Fin 3 → Nat) a + S1x4096x64.size a ≤ S8x4096x64.size a
  inb_S8x64x4096_S1x64x4096_7_0_0 : ∀ a, (![7, 0, 0] : Fin 3 → Nat) a + S1x64x4096.size a ≤ S8x64x4096.size a
  inb_S128x8_S128x1_0_7 : ∀ a, (![0, 7] : Fin 2 → Nat) a + S128x1.size a ≤ S128x8.size a
  dot_S128x4096_S4096x64_S128x64_1_0_0_1_n_n_wf : DotDims.WF S128x4096 S4096x64 S128x64 [1] [0] [0] [1] [] []
  dot_S128x64_S64x4096_S128x4096_1_0_0_1_n_n_wf : DotDims.WF S128x64 S64x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S16384x4096.size a
  hwx0_0 : ∀ i : grid0.Coords, EltTy.bits .f32 = 32 ∨ (Rect.block (s := S16384x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S16384x4096.size a
  hwx0_1 : ∀ i : grid0.Coords, EltTy.bits .f32 = 32 ∨ (Rect.block (s := S16384x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8.size a ≤ S16384x8.size a
  hwx0_2 : ∀ i : grid0.Coords, EltTy.bits .f32 = 32 ∨ (Rect.block (s := S16384x8) S128x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x4096x64.size a ≤ S8x4096x64.size a
  hwx0_3 : ∀ i : grid0.Coords, EltTy.bits .bf16 = 32 ∨ (Rect.block (s := S8x4096x64) S8x4096x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x64x4096.size a ≤ S8x64x4096.size a
  hwx0_4 : ∀ i : grid0.Coords, EltTy.bits .bf16 = 32 ∨ (Rect.block (s := S8x64x4096) S8x64x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S16384x4096.size a
  hwx0_5 : ∀ i : grid0.Coords, EltTy.bits .f32 = 32 ∨ (Rect.block (s := S16384x4096) S128x4096.size (cc0_transform_5 i) (hinb0_5 i)).WholeWords (EltTy.packing .f32)

variable [Facts₀]

def dot_S128x4096_S4096x64_S128x64_1_0_0_1_n_n : DotDims S128x4096 S4096x64 S128x64 where
  lhsContracting := [1]
  rhsContracting := [0]
  lhsNonContracting := [0]
  rhsNonContracting := [1]
  lhsBatch := []
  rhsBatch := []
  wf := dot_S128x4096_S4096x64_S128x64_1_0_0_1_n_n_wf
def dot_S128x64_S64x4096_S128x4096_1_0_0_1_n_n : DotDims S128x64 S64x4096 S128x4096 where
  lhsContracting := [1]
  rhsContracting := [0]
  lhsNonContracting := [0]
  rhsNonContracting := [1]
  lhsBatch := []
  rhsBatch := []
  wf := dot_S128x64_S64x4096_S128x4096_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S8x4096x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S8x64x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S8x4096x64 : Shape := ⟨3, ![8, 4096, 64]⟩
abbrev S8x64x4096 : Shape := ⟨3, ![8, 64, 4096]⟩
abbrev S8 : Shape := ⟨1, ![8]⟩
abbrev S16384 : Shape := ⟨1, ![16384]⟩
abbrev S_ : Shape := ⟨0, ![]⟩
abbrev S1 : Shape := ⟨1, ![1]⟩
abbrev S1x4096x64 : Shape := ⟨3, ![1, 4096, 64]⟩
abbrev S4096x64 : Shape := ⟨2, ![4096, 64]⟩
abbrev S16384x64 : Shape := ⟨2, ![16384, 64]⟩
abbrev S1x64x4096 : Shape := ⟨3, ![1, 64, 4096]⟩
abbrev S64x4096 : Shape := ⟨2, ![64, 4096]⟩
abbrev S16384x1 : Shape := ⟨2, ![16384, 1]⟩

abbrev nBuf : Space → Nat
  | .hbm => 150
  | .vmem => 0
  | .smem => 0
  | _ => 0

abbrev hbmTy0_0 (i : Nat) : BufTy := match i % 128 with
  | 0 => ⟨S16384x4096, .f32⟩
  | 1 => ⟨S16384x4096, .f32⟩
  | 2 => ⟨S8x4096x64, .f32⟩
  | 3 => ⟨S8x64x4096, .f32⟩
  | 4 => ⟨S8, .f32⟩
  | 5 => ⟨S16384, .i32⟩
  | 6 => ⟨S_, .i32⟩
  | 7 => ⟨S16384, .i32⟩
  | 8 => ⟨S16384, .i1⟩
  | 9 => ⟨S16384, .f32⟩
  | 10 => ⟨S1, .f32⟩
  | 11 => ⟨S_, .f32⟩
  | 12 => ⟨S16384, .f32⟩
  | 13 => ⟨S16384, .f32⟩
  | 14 => ⟨S1x4096x64, .f32⟩
  | 15 => ⟨S4096x64, .f32⟩
  | 16 => ⟨S16384x64, .f32⟩
  | 17 => ⟨S1x64x4096, .f32⟩
  | 18 => ⟨S64x4096, .f32⟩
  | 19 => ⟨S16384x4096, .f32⟩
  | 20 => ⟨S16384x1, .f32⟩
  | 21 => ⟨S16384x4096, .f32⟩
  | 22 => ⟨S16384x4096, .f32⟩
  | 23 => ⟨S16384x4096, .f32⟩
  | 24 => ⟨S_, .i32⟩
  | 25 => ⟨S16384, .i32⟩
  | 26 => ⟨S16384, .i1⟩
  | 27 => ⟨S16384, .f32⟩
  | 28 => ⟨S1, .f32⟩
  | 29 => ⟨S_, .f32⟩
  | 30 => ⟨S16384, .f32⟩
  | 31 => ⟨S16384, .f32⟩
  | 32 => ⟨S1x4096x64, .f32⟩
  | 33 => ⟨S4096x64, .f32⟩
  | 34 => ⟨S16384x64, .f32⟩
  | 35 => ⟨S1x64x4096, .f32⟩
  | 36 => ⟨S64x4096, .f32⟩
  | 37 => ⟨S16384x4096, .f32⟩
  | 38 => ⟨S16384x1, .f32⟩
  | 39 => ⟨S16384x4096, .f32⟩
  | 40 => ⟨S16384x4096, .f32⟩
  | 41 => ⟨S16384x4096, .f32⟩
  | 42 => ⟨S_, .i32⟩
  | 43 => ⟨S16384, .i32⟩
  | 44 => ⟨S16384, .i1⟩
  | 45 => ⟨S16384, .f32⟩
  | 46 => ⟨S1, .f32⟩
  | 47 => ⟨S_, .f32⟩
  | 48 => ⟨S16384, .f32⟩
  | 49 => ⟨S16384, .f32⟩
  | 50 => ⟨S1x4096x64, .f32⟩
  | 51 => ⟨S4096x64, .f32⟩
  | 52 => ⟨S16384x64, .f32⟩
  | 53 => ⟨S1x64x4096, .f32⟩
  | 54 => ⟨S64x4096, .f32⟩
  | 55 => ⟨S16384x4096, .f32⟩
  | 56 => ⟨S16384x1, .f32⟩
  | 57 => ⟨S16384x4096, .f32⟩
  | 58 => ⟨S16384x4096, .f32⟩
  | 59 => ⟨S16384x4096, .f32⟩
  | 60 => ⟨S_, .i32⟩
  | 61 => ⟨S16384, .i32⟩
  | 62 => ⟨S16384, .i1⟩
  | 63 => ⟨S16384, .f32⟩
  | 64 => ⟨S1, .f32⟩
  | 65 => ⟨S_, .f32⟩
  | 66 => ⟨S16384, .f32⟩
  | 67 => ⟨S16384, .f32⟩
  | 68 => ⟨S1x4096x64, .f32⟩
  | 69 => ⟨S4096x64, .f32⟩
  | 70 => ⟨S16384x64, .f32⟩
  | 71 => ⟨S1x64x4096, .f32⟩
  | 72 => ⟨S64x4096, .f32⟩
  | 73 => ⟨S16384x4096, .f32⟩
  | 74 => ⟨S16384x1, .f32⟩
  | 75 => ⟨S16384x4096, .f32⟩
  | 76 => ⟨S16384x4096, .f32⟩
  | 77 => ⟨S16384x4096, .f32⟩
  | 78 => ⟨S_, .i32⟩
  | 79 => ⟨S16384, .i32⟩
  | 80 => ⟨S16384, .i1⟩
  | 81 => ⟨S16384, .f32⟩
  | 82 => ⟨S1, .f32⟩
  | 83 => ⟨S_, .f32⟩
  | 84 => ⟨S16384, .f32⟩
  | 85 => ⟨S16384, .f32⟩
  | 86 => ⟨S1x4096x64, .f32⟩
  | 87 => ⟨S4096x64, .f32⟩
  | 88 => ⟨S16384x64, .f32⟩
  | 89 => ⟨S1x64x4096, .f32⟩
  | 90 => ⟨S64x4096, .f32⟩
  | 91 => ⟨S16384x4096, .f32⟩
  | 92 => ⟨S16384x1, .f32⟩
  | 93 => ⟨S16384x4096, .f32⟩
  | 94 => ⟨S16384x4096, .f32⟩
  | 95 => ⟨S16384x4096, .f32⟩
  | 96 => ⟨S_, .i32⟩
  | 97 => ⟨S16384, .i32⟩
  | 98 => ⟨S16384, .i1⟩
  | 99 => ⟨S16384, .f32⟩
  | 100 => ⟨S1, .f32⟩
  | 101 => ⟨S_, .f32⟩
  | 102 => ⟨S16384, .f32⟩
  | 103 => ⟨S16384, .f32⟩
  | 104 => ⟨S1x4096x64, .f32⟩
  | 105 => ⟨S4096x64, .f32⟩
  | 106 => ⟨S16384x64, .f32⟩
  | 107 => ⟨S1x64x4096, .f32⟩
  | 108 => ⟨S64x4096, .f32⟩
  | 109 => ⟨S16384x4096, .f32⟩
  | 110 => ⟨S16384x1, .f32⟩
  | 111 => ⟨S16384x4096, .f32⟩
  | 112 => ⟨S16384x4096, .f32⟩
  | 113 => ⟨S16384x4096, .f32⟩
  | 114 => ⟨S_, .i32⟩
  | 115 => ⟨S16384, .i32⟩
  | 116 => ⟨S16384, .i1⟩
  | 117 => ⟨S16384, .f32⟩
  | 118 => ⟨S1, .f32⟩
  | 119 => ⟨S_, .f32⟩
  | 120 => ⟨S16384, .f32⟩
  | 121 => ⟨S16384, .f32⟩
  | 122 => ⟨S1x4096x64, .f32⟩
  | 123 => ⟨S4096x64, .f32⟩
  | 124 => ⟨S16384x64, .f32⟩
  | 125 => ⟨S1x64x4096, .f32⟩
  | 126 => ⟨S64x4096, .f32⟩
  | 127 => ⟨S16384x4096, .f32⟩
  | _ => ⟨S16384x4096, .f32⟩

abbrev hbmTy0_1 (i : Nat) : BufTy := match i % 128 with
  | 0 => ⟨S16384x1, .f32⟩
  | 1 => ⟨S16384x4096, .f32⟩
  | 2 => ⟨S16384x4096, .f32⟩
  | 3 => ⟨S16384x4096, .f32⟩
  | 4 => ⟨S_, .i32⟩
  | 5 => ⟨S16384, .i32⟩
  | 6 => ⟨S16384, .i1⟩
  | 7 => ⟨S16384, .f32⟩
  | 8 => ⟨S1, .f32⟩
  | 9 => ⟨S_, .f32⟩
  | 10 => ⟨S16384, .f32⟩
  | 11 => ⟨S16384, .f32⟩
  | 12 => ⟨S1x4096x64, .f32⟩
  | 13 => ⟨S4096x64, .f32⟩
  | 14 => ⟨S16384x64, .f32⟩
  | 15 => ⟨S1x64x4096, .f32⟩
  | 16 => ⟨S64x4096, .f32⟩
  | 17 => ⟨S16384x4096, .f32⟩
  | 18 => ⟨S16384x1, .f32⟩
  | 19 => ⟨S16384x4096, .f32⟩
  | 20 => ⟨S16384x4096, .f32⟩
  | 21 => ⟨S16384x4096, .f32⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_1 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_c_2 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_c_3 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_c_4 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_c_5 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_c_6 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  slices_S8_S1_0 : S8.Slices ![0] S1
  shapeCasts_S1_S_ : S1.ShapeCasts S_
  slices_S8x4096x64_S1x4096x64_0_0_0 : S8x4096x64.Slices ![0, 0, 0] S1x4096x64
  shapeCasts_S1x4096x64_S4096x64 : S1x4096x64.ShapeCasts S4096x64
  slices_S8x64x4096_S1x64x4096_0_0_0 : S8x64x4096.Slices ![0, 0, 0] S1x64x4096
  shapeCasts_S1x64x4096_S64x4096 : S1x64x4096.ShapeCasts S64x4096
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  slices_S8_S1_1 : S8.Slices ![1] S1
  slices_S8x4096x64_S1x4096x64_1_0_0 : S8x4096x64.Slices ![1, 0, 0] S1x4096x64
  slices_S8x64x4096_S1x64x4096_1_0_0 : S8x64x4096.Slices ![1, 0, 0] S1x64x4096
  slices_S8_S1_2 : S8.Slices ![2] S1
  slices_S8x4096x64_S1x4096x64_2_0_0 : S8x4096x64.Slices ![2, 0, 0] S1x4096x64
  slices_S8x64x4096_S1x64x4096_2_0_0 : S8x64x4096.Slices ![2, 0, 0] S1x64x4096
  slices_S8_S1_3 : S8.Slices ![3] S1
  slices_S8x4096x64_S1x4096x64_3_0_0 : S8x4096x64.Slices ![3, 0, 0] S1x4096x64
  slices_S8x64x4096_S1x64x4096_3_0_0 : S8x64x4096.Slices ![3, 0, 0] S1x64x4096
  slices_S8_S1_4 : S8.Slices ![4] S1
  slices_S8x4096x64_S1x4096x64_4_0_0 : S8x4096x64.Slices ![4, 0, 0] S1x4096x64
  slices_S8x64x4096_S1x64x4096_4_0_0 : S8x64x4096.Slices ![4, 0, 0] S1x64x4096
  slices_S8_S1_5 : S8.Slices ![5] S1
  slices_S8x4096x64_S1x4096x64_5_0_0 : S8x4096x64.Slices ![5, 0, 0] S1x4096x64
  slices_S8x64x4096_S1x64x4096_5_0_0 : S8x64x4096.Slices ![5, 0, 0] S1x64x4096
  slices_S8_S1_6 : S8.Slices ![6] S1
  slices_S8x4096x64_S1x4096x64_6_0_0 : S8x4096x64.Slices ![6, 0, 0] S1x4096x64
  slices_S8x64x4096_S1x64x4096_6_0_0 : S8x64x4096.Slices ![6, 0, 0] S1x64x4096
  slices_S8_S1_7 : S8.Slices ![7] S1
  slices_S8x4096x64_S1x4096x64_7_0_0 : S8x4096x64.Slices ![7, 0, 0] S1x4096x64
  slices_S8x64x4096_S1x64x4096_7_0_0 : S8x64x4096.Slices ![7, 0, 0] S1x64x4096
  dot_S16384x4096_S4096x64_S16384x64_1_0_0_1_n_n_wf : DotDims.WF S16384x4096 S4096x64 S16384x64 [1] [0] [0] [1] [] []
  dot_S16384x64_S64x4096_S16384x4096_1_0_0_1_n_n_wf : DotDims.WF S16384x64 S64x4096 S16384x4096 [1] [0] [0] [1] [] []

variable [Facts₀]

def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf

class Facts : Prop extends Facts₀ where

variable [Facts]
-- ==== Proof.LibGatedLowRank.lean ====
/-
  One adapter's gated low-rank update, read at one element, on the extended reals.

  A token block X (M × K) is multiplied by a K × R factor and the result by an R × N factor; the product is then
  scaled row by row with a gate, one number per row. Read at row p and column q the value is

      ( ∑ r, ( ∑ d, X(p, d) · Af(d, r) ) · Bf(r, q) ) · g(p).

  Two spellings of this value are read here. The vector unit's: both factors arrive as slabs with a leading unit axis
  that a shape cast drops, each product accumulates into a zero matrix, the gate is a column that is broadcast over the
  N lanes. The host's: both factors are unit-thick slices of stacks of E factors, the products have no accumulator, the
  gate is a vector over the rows, itself the product of an indicator (a word compared with a constant, converted to a
  float) and of one entry of a vector of E scales, and is broadcast first to a column and then over the columns.
  Only the definitions of the operations are used: no law of the extended reals, no finiteness.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import Idealize.ShloMosaic.Lib.KernelVsHost
import Idealize.ShloMosaic.Lib.StackMember

noncomputable section

open scoped BigOperators
open Idealize.ShloMosaic Idealize.ShloMosaic.ValueIdx

namespace Cert.LibGatedLowRank

/-- The low-rank product of row p of X with the two factors of slab e, at column q. -/
def lowRank {T K R N E : ℕ} {φ₁ φ₂ φ₃ : FTy} (X : FVec Ideal ⟨2, ![T, K]⟩ φ₁) (A : FVec Ideal ⟨3, ![E, K, R]⟩ φ₂)
    (B : FVec Ideal ⟨3, ![E, R, N]⟩ φ₃) (e : Fin E) (p : Fin T) (q : Fin N) : EReal :=
  ∑ r : Fin R, (∑ d : Fin K, X (ix2 p d) * A (ix3 e d r)) * B (ix3 e r q)

/-- A column [M, 1] broadcast over N lanes reads the column's entry of the row. -/
theorem column_lanes_apply {α : Type} {M N : ℕ} (v : (⟨2, ![M, 1]⟩ : Shape).Idx → α)
    (h : (⟨2, ![M, 1]⟩ : Shape).Broadcasts ⟨2, ![M, N]⟩) (p : Fin M) (q : Fin N) :
    broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- A product accumulated into a zero matrix, at row a and column b: the sum over the contracted coordinate. -/
theorem matmul_zero_apply {M K N : ℕ} {φ₁ φ₂ : FTy} (prec : Option ContractPrecision)
    (l : FVec Ideal ⟨2, ![M, K]⟩ φ₁) (r : FVec Ideal ⟨2, ![K, N]⟩ φ₂) (a : Fin M) (b : Fin N) :
    matmul (DotDims.plain M K N) prec l r (constant (⟨2, ![M, N]⟩ : Shape) .f32 0x00000000#32) (ix2 a b)
      = ∑ k : Fin K, l (ix2 a k) * r (ix2 k b) := by
  rw [matmul_zero_eq_dotGeneral]
  exact StackMember.dotGeneral_plain_apply prec l r a b

/-- The vector unit's spelling at (p, q). -/
theorem kernel_term_apply {M K R N : ℕ} {φ₁ φ₂ φ₃ : FTy}
    (X : FVec Ideal ⟨2, ![M, K]⟩ φ₁) (A : FVec Ideal ⟨3, ![1, K, R]⟩ φ₂) (B : FVec Ideal ⟨3, ![1, R, N]⟩ φ₃)
    (g : FVec Ideal ⟨2, ![M, 1]⟩ .f32)
    (hA : (⟨3, ![1, K, R]⟩ : Shape).ShapeCasts ⟨2, ![K, R]⟩) (hB : (⟨3, ![1, R, N]⟩ : Shape).ShapeCasts ⟨2, ![R, N]⟩)
    (hg : (⟨2, ![M, 1]⟩ : Shape).ShapeCasts ⟨2, ![M, 1]⟩) (hl : (⟨2, ![M, 1]⟩ : Shape).Broadcasts ⟨2, ![M, N]⟩)
    (hb : (FTy.bf16).bits < (FTy.f32).bits) (p : Fin M) (q : Fin N) :
    mulf (matmul (DotDims.plain M R N) none
            (truncf .bf16 (matmul (DotDims.plain M K R) none X (shapeCast ⟨2, ![K, R]⟩ A hA)
              (constant (⟨2, ![M, R]⟩ : Shape) .f32 0x00000000#32)) hb)
            (shapeCast ⟨2, ![R, N]⟩ B hB) (constant (⟨2, ![M, N]⟩ : Shape) .f32 0x00000000#32))
         (broadcastTo ⟨2, ![M, N]⟩ (shapeCast ⟨2, ![M, 1]⟩ g hg) hl) (ix2 p q)
      = lowRank X A B (0 : Fin 1) p q * g (ix2 p (0 : Fin 1)) := by
  rw [mulf_apply, matmul_zero_apply, column_lanes_apply, shapeCast_self]
  unfold lowRank
  congr 1
  refine Finset.sum_congr rfl fun r _ => ?_
  rw [truncf_apply, matmul_zero_apply, shapeCast_1ab_ab_apply]
  congr 1
  refine Finset.sum_congr rfl fun d _ => ?_
  rw [shapeCast_1ab_ab_apply]

/-- The gate of slab e on row t: the indicator that the row's word is k, times the slab's scale. -/
def gate {T E : ℕ} (scal : FVec Ideal ⟨1, ![E]⟩ .f32) (ids : IVec ⟨1, ![T]⟩ 32) (k : BitVec 32) (e : Fin E) (t : Fin T) : EReal :=
  FloatOps.uitofp (F := Ideal) .f32 (IntOp.cmpi .eq (ids (ix1 t)) k) * scal (ix1 e)

/-- A unit-thick slice of a stack of E matrices at slab e, its leading axis dropped, at (i, j): the stack at (e, i, j). -/
theorem slab_apply {α : Type} {E a b : ℕ} (S : (⟨3, ![E, a, b]⟩ : Shape).Idx → α) (e : Fin E) (off : Fin 3 → ℕ)
    (ho : off = ![e.val, 0, 0]) (hs : (⟨3, ![E, a, b]⟩ : Shape).Slices off ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ off S hs) hc (ix2 i j) = S (ix3 e i j) := by
  subst ho
  rw [shapeCast_1ab_ab_apply]
  refine extractStridedSlice_apply _ S hs _ (ix3 e i j) fun ax => ?_
  match ax with
  | ⟨0, _⟩ => show e.val = e.val + 0; rfl
  | ⟨1, _⟩ => show i.val = 0 + i.val; omega
  | ⟨2, _⟩ => show j.val = 0 + j.val; omega

/-- The host's gate vector at row t. -/
theorem host_gate_apply {T E : ℕ} (scal : FVec Ideal ⟨1, ![E]⟩ .f32) (ids : IVec ⟨1, ![T]⟩ 32) (k : BitVec 32) (e : Fin E)
    (off : Fin 1 → ℕ) (ho : off = ![e.val]) (hs : (⟨1, ![E]⟩ : Shape).Slices off ⟨1, ![1]⟩)
    (hc : (⟨1, ![1]⟩ : Shape).ShapeCasts ⟨0, ![]⟩)
    (hk : (⟨0, ![]⟩ : Shape).BroadcastsInDim ⟨1, ![T]⟩ ![]) (hv : (⟨0, ![]⟩ : Shape).BroadcastsInDim ⟨1, ![T]⟩ ![])
    (t : Fin T) :
    mulf (uitofp (F := Ideal) .f32 (cmpi .eq ids (broadcastInDim ⟨1, ![T]⟩ ![] hk (constantI ⟨0, ![]⟩ 32 k))))
         (broadcastInDim ⟨1, ![T]⟩ ![] hv (shapeCast ⟨0, ![]⟩ (extractStridedSlice ⟨1, ![1]⟩ off scal hs) hc)) (ix1 t)
      = gate scal ids k e t := by
  subst ho
  rw [mulf_apply]
  show FloatOps.uitofp (F := Ideal) .f32 (IntOp.cmpi .eq (ids (ix1 t)) (broadcastInDim ⟨1, ![T]⟩ ![] hk (constantI ⟨0, ![]⟩ 32 k) (ix1 t))) * _ = _
  rw [broadcastInDim_scalar_apply, broadcastInDim_scalar_apply, constantI_apply]
  unfold gate
  congr 1
  refine (shapeCast_apply _ hc ix0 (ix1 (0 : Fin 1)) ?_).trans ?_
  · rw [Shape.rowMajor_val_one]; rfl
  · refine extractStridedSlice_apply _ scal hs _ (ix1 e) fun ax => ?_
    match ax with
    | ⟨0, _⟩ => show e.val = e.val + 0; rfl

/-- The host's spelling at (t, o), over any gate vector. -/
theorem host_term_apply {T K R N E : ℕ} {φ₁ φ₂ φ₃ : FTy} (X : FVec Ideal ⟨2, ![T, K]⟩ φ₁) (A : FVec Ideal ⟨3, ![E, K, R]⟩ φ₂)
    (B : FVec Ideal ⟨3, ![E, R, N]⟩ φ₃) (gv : FVec Ideal ⟨1, ![T]⟩ .f32) (e : Fin E)
    (offA : Fin 3 → ℕ) (hoA : offA = ![e.val, 0, 0]) (hsA : (⟨3, ![E, K, R]⟩ : Shape).Slices offA ⟨3, ![1, K, R]⟩)
    (hcA : (⟨3, ![1, K, R]⟩ : Shape).ShapeCasts ⟨2, ![K, R]⟩)
    (offB : Fin 3 → ℕ) (hoB : offB = ![e.val, 0, 0]) (hsB : (⟨3, ![E, R, N]⟩ : Shape).Slices offB ⟨3, ![1, R, N]⟩)
    (hcB : (⟨3, ![1, R, N]⟩ : Shape).ShapeCasts ⟨2, ![R, N]⟩)
    (h1 : (⟨1, ![T]⟩ : Shape).BroadcastsInDim ⟨2, ![T, 1]⟩ ![0])
    (h2 : (⟨2, ![T, 1]⟩ : Shape).BroadcastsInDim ⟨2, ![T, N]⟩ ![0, 1]) (t : Fin T) (o : Fin N) :
    mulf (Host.dotGeneral (DotDims.plain T R N) none
            (Host.dotGeneral (DotDims.plain T K R) none X
              (shapeCast ⟨2, ![K, R]⟩ (extractStridedSlice ⟨3, ![1, K, R]⟩ offA A hsA) hcA))
            (shapeCast ⟨2, ![R, N]⟩ (extractStridedSlice ⟨3, ![1, R, N]⟩ offB B hsB) hcB))
         (broadcastInDim ⟨2, ![T, N]⟩ ![0, 1] h2 (broadcastInDim ⟨2, ![T, 1]⟩ ![0] h1 gv)) (ix2 t o)
      = lowRank X A B e t o * gv (ix1 t) := by
  rw [mulf_apply, StackMember.dotGeneral_plain_apply]
  unfold lowRank
  congr 1
  · refine Finset.sum_congr rfl fun r _ => ?_
    rw [StackMember.dotGeneral_plain_apply, slab_apply B e offB hoB]
    congr 1
    refine Finset.sum_congr rfl fun d _ => ?_
    rw [slab_apply A e offA hoA]
  · refine (broadcastInDim_apply _ h2 _ (ix2 t o) (ix2 t (0 : Fin 1)) fun ax => ?_).trans ?_
    · match ax with
      | ⟨0, _⟩ =>
        show t.val = if T = 1 then 0 else t.val
        split
        · have := t.isLt; omega
        · rfl
      | ⟨1, _⟩ => rfl
    · refine broadcastInDim_apply _ h1 gv (ix2 t (0 : Fin 1)) (ix1 t) fun ax => ?_
      match ax with
      | ⟨0, _⟩ =>
        show t.val = if T = 1 then 0 else t.val
        split
        · have := t.isLt; omega
        · rfl

/-- A row [1, E] broadcast over T rows reads the row's entry of the column. -/
theorem row_rows_apply {α : Type} {T E : ℕ} (v : (⟨2, ![1, E]⟩ : Shape).Idx → α)
    (h : (⟨2, ![1, E]⟩ : Shape).BroadcastsInDim ⟨2, ![T, E]⟩ ![0, 1]) (t : Fin T) (e : Fin E) :
    broadcastInDim ⟨2, ![T, E]⟩ ![0, 1] h v (ix2 t e) = v (ix2 (0 : Fin 1) e) := by
  refine broadcastInDim_apply _ h v (ix2 t e) (ix2 (0 : Fin 1) e) fun ax => ?_
  match ax with
  | ⟨0, _⟩ => rfl
  | ⟨1, _⟩ =>
    show e.val = if E = 1 then 0 else e.val
    split
    · have := e.isLt; omega
    · rfl

/-- A vector [E] laid as the row [1, E] reads its entry. -/
theorem as_row_apply {α : Type} {E : ℕ} (v : (⟨1, ![E]⟩ : Shape).Idx → α)
    (h : (⟨1, ![E]⟩ : Shape).BroadcastsInDim ⟨2, ![1, E]⟩ ![1]) (e : Fin E) :
    broadcastInDim ⟨2, ![1, E]⟩ ![1] h v (ix2 (0 : Fin 1) e) = v (ix1 e) := by
  refine broadcastInDim_apply _ h v (ix2 (0 : Fin 1) e) (ix1 e) fun ax => ?_
  match ax with
  | ⟨0, _⟩ =>
    show e.val = if E = 1 then 0 else e.val
    split
    · have := e.isLt; omega
    · rfl

/-- A vector [T] laid as the column [T, 1] and broadcast over E columns reads its entry of the row. -/
theorem as_column_columns_apply {α : Type} {T E : ℕ} (v : (⟨1, ![T]⟩ : Shape).Idx → α)
    (h0 : (⟨1, ![T]⟩ : Shape).BroadcastsInDim ⟨2, ![T, 1]⟩ ![0])
    (h1 : (⟨2, ![T, 1]⟩ : Shape).BroadcastsInDim ⟨2, ![T, E]⟩ ![0, 1]) (t : Fin T) (e : Fin E) :
    broadcastInDim ⟨2, ![T, E]⟩ ![0, 1] h1 (broadcastInDim ⟨2, ![T, 1]⟩ ![0] h0 v) (ix2 t e) = v (ix1 t) := by
  refine (broadcastInDim_apply _ h1 _ (ix2 t e) (ix2 t (0 : Fin 1)) fun ax => ?_).trans ?_
  · match ax with
    | ⟨0, _⟩ =>
      show t.val = if T = 1 then 0 else t.val
      split
      · have := t.isLt; omega
      · rfl
    | ⟨1, _⟩ => rfl
  · refine broadcastInDim_apply _ h0 v (ix2 t (0 : Fin 1)) (ix1 t) fun ax => ?_
    match ax with
    | ⟨0, _⟩ =>
      show t.val = if T = 1 then 0 else t.val
      split
      · have := t.isLt; omega
      · rfl

/-- The gate matrix [T, E] built at once — every row's word against the counter 0 … E-1 along the columns, converted,
    times the scales along the columns — reads, at (t, e), the gate of slab e on row t with the constant e. -/
theorem gate_matrix_apply {T E : ℕ} (scal : FVec Ideal ⟨1, ![E]⟩ .f32) (ids : IVec ⟨1, ![T]⟩ 32)
    (h0 : (⟨1, ![T]⟩ : Shape).BroadcastsInDim ⟨2, ![T, 1]⟩ ![0])
    (h3 : (⟨2, ![T, 1]⟩ : Shape).BroadcastsInDim ⟨2, ![T, E]⟩ ![0, 1])
    (h2 : (⟨1, ![E]⟩ : Shape).BroadcastsInDim ⟨2, ![1, E]⟩ ![1])
    (h4 : (⟨2, ![1, E]⟩ : Shape).BroadcastsInDim ⟨2, ![T, E]⟩ ![0, 1])
    (h7 : (⟨1, ![E]⟩ : Shape).BroadcastsInDim ⟨2, ![1, E]⟩ ![1])
    (h8 : (⟨2, ![1, E]⟩ : Shape).BroadcastsInDim ⟨2, ![T, E]⟩ ![0, 1]) (t : Fin T) (e : Fin E) :
    mulf (uitofp (F := Ideal) .f32
            (cmpi .eq (broadcastInDim ⟨2, ![T, E]⟩ ![0, 1] h3 (broadcastInDim ⟨2, ![T, 1]⟩ ![0] h0 ids))
              (broadcastInDim ⟨2, ![T, E]⟩ ![0, 1] h4 (broadcastInDim ⟨2, ![1, E]⟩ ![1] h2 (iotaInDim ⟨1, ![E]⟩ 32 0)))))
         (broadcastInDim ⟨2, ![T, E]⟩ ![0, 1] h8 (broadcastInDim ⟨2, ![1, E]⟩ ![1] h7 scal)) (ix2 t e)
      = gate scal ids (BitVec.ofNat 32 e.val) e t := by
  rw [mulf_apply]
  show FloatOps.uitofp (F := Ideal) .f32 (IntOp.cmpi .eq
      (broadcastInDim ⟨2, ![T, E]⟩ ![0, 1] h3 (broadcastInDim ⟨2, ![T, 1]⟩ ![0] h0 ids) (ix2 t e))
      (broadcastInDim ⟨2, ![T, E]⟩ ![0, 1] h4 (broadcastInDim ⟨2, ![1, E]⟩ ![1] h2 (iotaInDim ⟨1, ![E]⟩ 32 0)) (ix2 t e))) * _ = _
  rw [as_column_columns_apply, row_rows_apply, row_rows_apply, as_row_apply, as_row_apply, iotaInDim_apply]
  rfl

end Cert.LibGatedLowRank

end
-- ==== Proof.Spec.lean ====
/-
  What both programs compute. Each of T tokens carries a row x(t, ·) of 4096 features, a row of the base output
  and an adapter id; each of the 8 adapters has a 4096 × 64 factor A[e], a 64 × 4096 factor B[e] and a scale. The
  result at token t and output feature o is the base output plus, adapter after adapter in the order 0, 1, …, 7,

      ( ∑ r, ( ∑ d, x(t, d) · A[e](d, r) ) · B[e](r, o) ) · gate(e, t),

  where gate(e, t) is the scale of adapter e if token t is routed to it and zero times that scale otherwise. The eight
  terms are added onto the base one at a time, from the left; that order is part of the specification, so that no law of
  the extended reals beyond the definitions is needed to meet either program.

  The number of tokens is a parameter: the kernel works on blocks of 128 tokens, the reference on all 16384, and a
  token's result depends on its own row only (`mixAt_rows`).
-/
import proofs.«180197_j78872779424006_1_alg».proof.Proof.LibGatedLowRank

noncomputable section

open Idealize.ShloMosaic Idealize.ShloMosaic.ValueIdx Cert.LibGatedLowRank

namespace Cert.Slora

abbrev ShA : Shape := ⟨3, ![8, 4096, 64]⟩
abbrev ShB : Shape := ⟨3, ![8, 64, 4096]⟩

/-- Adapter e's gated low-rank update at token t, output feature o, for a gate given as a function. -/
def update {T : ℕ} {φ₁ φ₂ φ₃ : FTy} (X : FVec Ideal ⟨2, ![T, 4096]⟩ φ₁) (A : FVec Ideal ShA φ₂) (B : FVec Ideal ShB φ₃)
    (Gm : Fin 8 → Fin T → EReal) (e : Fin 8) (t : Fin T) (o : Fin 4096) : EReal :=
  lowRank X A B e t o * Gm e t

/-- The base output plus the eight adapters' updates, added in order, at token t and output feature o. -/
def mixAt {T : ℕ} {φ₁ φ₂ φ₃ : FTy} (X : FVec Ideal ⟨2, ![T, 4096]⟩ φ₁) (Bs : FVec Ideal ⟨2, ![T, 4096]⟩ .f32)
    (A : FVec Ideal ShA φ₂) (B : FVec Ideal ShB φ₃) (Gm : Fin 8 → Fin T → EReal) (t : Fin T) (o : Fin 4096) : EReal :=
  Bs (ix2 t o) + update X A B Gm 0 t o + update X A B Gm 1 t o + update X A B Gm 2 t o + update X A B Gm 3 t o
    + update X A B Gm 4 t o + update X A B Gm 5 t o + update X A B Gm 6 t o + update X A B Gm 7 t o

/-- The same as an array over the tokens and the output features. -/
def mix {T : ℕ} {φ₁ φ₂ φ₃ : FTy} (X : FVec Ideal ⟨2, ![T, 4096]⟩ φ₁) (Bs : FVec Ideal ⟨2, ![T, 4096]⟩ .f32)
    (A : FVec Ideal ShA φ₂) (B : FVec Ideal ShB φ₃) (Gm : Fin 8 → Fin T → EReal) : (⟨2, ![T, 4096]⟩ : Shape).Idx → EReal :=
  fun i => mixAt X Bs A B Gm (i 0) (i 1)

/-- A token's result depends on its own rows only: if row p of one set of token arrays is row s of another (the features,
    the base output and the gates), under factors that agree, the results on those rows agree. -/
theorem mixAt_rows {T T' : ℕ} {φ₁ φ₂ φ₃ ψ₁ ψ₂ ψ₃ : FTy}
    (X : FVec Ideal ⟨2, ![T, 4096]⟩ φ₁) (Bs : FVec Ideal ⟨2, ![T, 4096]⟩ .f32) (A : FVec Ideal ShA φ₂) (B : FVec Ideal ShB φ₃)
    (Gm : Fin 8 → Fin T → EReal)
    (X' : FVec Ideal ⟨2, ![T', 4096]⟩ ψ₁) (Bs' : FVec Ideal ⟨2, ![T', 4096]⟩ .f32) (A' : FVec Ideal ShA ψ₂) (B' : FVec Ideal ShB ψ₃)
    (Gm' : Fin 8 → Fin T' → EReal) (p : Fin T') (s : Fin T)
    (hX : ∀ d, X' (ix2 p d) = X (ix2 s d)) (hBs : ∀ q, Bs' (ix2 p q) = Bs (ix2 s q))
    (hA : ∀ j, A' j = A j) (hB : ∀ j, B' j = B j) (hG : ∀ e, Gm' e p = Gm e s) (q : Fin 4096) :
    mixAt X' Bs' A' B' Gm' p q = mixAt X Bs A B Gm s q := by
  unfold mixAt update lowRank
  simp only [hX, hBs, hA, hB, hG]

/-- The routing gate: adapter e's scale on the tokens whose id is e. -/
def route {T : ℕ} (scal : FVec Ideal ⟨1, ![8]⟩ .f32) (ids : IVec ⟨1, ![T]⟩ 32) : Fin 8 → Fin T → EReal :=
  fun e t => gate scal ids (BitVec.ofNat 32 e.val) e t

end Cert.Slora

end
-- ==== Proof.KernelBody.lean ====
/-
  The kernel's body on one block of 128 tokens: what it stores is the specification's mix of the block's rows, with the
  gate read off the block's eight gate columns.
-/
import proofs.«180197_j78872779424006_1_alg».proof.Proof.Gen.KernelIdeal.Frame
import proofs.«180197_j78872779424006_1_alg».proof.Proof.Spec
import Idealize.ShloMosaic.Lib.Pipeline.Value

noncomputable section

open Idealize.ShloMosaic Idealize.ShloMosaic.TcCoe Idealize.SL.Sem Idealize.ShloMosaic.ValueIdx

namespace Cert.KernelIdeal.Body

open Cert.KernelIdeal Cert.KernelIdeal.Gen Cert.Slora Cert.LibGatedLowRank

theorem hz : (![0, 0] : Fin 2 → Nat) = fun _ => 0 := funext fun a => by fin_cases a <;> rfl

/-- One adapter's term of the body at row p, column q of the block: adapter k's factors are the unit-thick slabs at
    offset k of the two resident stacks, its gate column k of the block's gates. -/
theorem term_apply (P0 : Vec Ideal S128x4096 .f32) (P2 : Vec Ideal S128x8 .f32) (P3 : Vec Ideal S8x4096x64 .bf16)
    (P4 : Vec Ideal S8x64x4096 .bf16) (k : Fin 8)
    (inbA : ∀ a, (![k.val, 0, 0] : Fin 3 → Nat) a + S1x4096x64.size a ≤ S8x4096x64.size a)
    (inbB : ∀ a, (![k.val, 0, 0] : Fin 3 → Nat) a + S1x64x4096.size a ≤ S8x64x4096.size a)
    (inbG : ∀ a, (![0, k.val] : Fin 2 → Nat) a + S128x1.size a ≤ S128x8.size a) (p : Fin 128) (q : Fin 4096) :
    mulf (F := Ideal) (matmul dot_S128x64_S64x4096_S128x4096_1_0_0_1_n_n none
            (truncf .bf16 (matmul dot_S128x4096_S4096x64_S128x64_1_0_0_1_n_n none (truncf .bf16 P0 bitsLt_bf16_f32)
              (shapeCast S4096x64 (View.ld P3 (Rect.unit (s := S8x4096x64) ![k.val, 0, 0] S1x4096x64.size inbA)) shapeCasts_S1x4096x64_S4096x64 : FVec Ideal S4096x64 .bf16)
              (constant S128x64 .f32 0x00000000#32)) bitsLt_bf16_f32)
            (shapeCast S64x4096 (View.ld P4 (Rect.unit (s := S8x64x4096) ![k.val, 0, 0] S1x64x4096.size inbB)) shapeCasts_S1x64x4096_S64x4096 : FVec Ideal S64x4096 .bf16)
            (constant S128x4096 .f32 0x00000000#32))
         (broadcastTo S128x4096 (shapeCast S128x1 (View.ld P2 (Rect.unit (s := S128x8) ![0, k.val] S128x1.size inbG)) shapeCasts_S128x1_S128x1 : FVec Ideal S128x1 .f32)
            broadcasts_S128x1_S128x4096) (ix2 p q)
      = update (φ₁ := .f32) (φ₂ := .bf16) (φ₃ := .bf16) P0 P3 P4 (fun e r => P2 (ix2 r e)) k p q := by
  refine (kernel_term_apply (M := 128) (K := 4096) (R := 64) (N := 4096) (φ₁ := .bf16) (φ₂ := .bf16) (φ₃ := .bf16) (truncf .bf16 P0 bitsLt_bf16_f32) _ _ _ _ _ _ _ _ p q).trans ?_
  unfold update lowRank
  congr 1
  · refine Finset.sum_congr rfl fun r _ => ?_
    congr 1
    · refine Finset.sum_congr rfl fun d _ => ?_
      congr 1
      refine congrArg P3 (funext fun a => Fin.ext ?_)
      match a with
      | ⟨0, _⟩ => show k.val + 1 * 0 = k.val; omega
      | ⟨1, _⟩ => show 0 + 1 * d.val = d.val; omega
      | ⟨2, _⟩ => show 0 + 1 * r.val = r.val; omega
    · refine congrArg P4 (funext fun a => Fin.ext ?_)
      match a with
      | ⟨0, _⟩ => show k.val + 1 * 0 = k.val; omega
      | ⟨1, _⟩ => show 0 + 1 * r.val = r.val; omega
      | ⟨2, _⟩ => show 0 + 1 * q.val = q.val; omega
  · refine congrArg P2 (funext fun a => Fin.ext ?_)
    match a with
    | ⟨0, _⟩ => show 0 + 1 * p.val = p.val; omega
    | ⟨1, _⟩ => show k.val + 1 * 0 = k.val; omega

/-- Adding equals to equals. -/
private theorem add_both {a a' b b' : EReal} (h1 : a = a') (h2 : b = b') : a + b = a' + b' := by rw [h1, h2]

/-- WHAT THE BODY STORES, over any contents of its five input buffers: the mix of the block's token rows (features
    P0, base output P1) under the resident factor stacks P3 and P4, gated by the columns of the block's gates P2.
    The body's one store covers the output buffer, and its value adds the eight adapters' terms onto the base rows in
    the order 0, …, 7. -/
theorem body_eq (P0 P1 : Vec Ideal S128x4096 .f32) (P2 : Vec Ideal S128x8 .f32) (P3 : Vec Ideal S8x4096x64 .bf16)
    (P4 : Vec Ideal S8x64x4096 .bf16) :
    out0_5 P0 P1 P2 P3 P4
      = mix (T := 128) (φ₁ := .f32) (φ₂ := .bf16) (φ₃ := .bf16) P0 P1 P3 P4 (fun e r => P2 (ix2 r e)) := by
  unfold out0_5
  rw [View.canon_unit_zero hz]
  funext y
  obtain ⟨p, q, rfl⟩ : ∃ (p : Fin 128) (q : Fin 4096), y = ix2 p q := ⟨y 0, y 1, eq_ix2 y⟩
  simp only [View.ld_unit_zero (S := S128x4096) hz]
  unfold k0_pay1 k0_pay6 k0_pay5 k0_pay3 k0_pay7 k0_pay4 k0_pay2 mix mixAt
  simp only [addf_apply]
  refine add_both (add_both (add_both (add_both (add_both (add_both (add_both (add_both rfl ?_) ?_) ?_) ?_) ?_) ?_) ?_) ?_
  · exact term_apply P0 P2 P3 P4 0 _ _ _ p q
  · exact term_apply P0 P2 P3 P4 1 _ _ _ p q
  · exact term_apply P0 P2 P3 P4 2 _ _ _ p q
  · exact term_apply P0 P2 P3 P4 3 _ _ _ p q
  · exact term_apply P0 P2 P3 P4 4 _ _ _ p q
  · exact term_apply P0 P2 P3 P4 5 _ _ _ p q
  · exact term_apply P0 P2 P3 P4 6 _ _ _ p q
  · exact term_apply P0 P2 P3 P4 7 _ _ _ p q

end Cert.KernelIdeal.Body

end
-- ==== Proof.KernelValue.lean ====
/-
  The kernel's result array. The grid walks the 16384 tokens in 128 blocks of 128 rows; at each point the body reads the
  block's rows of the features, of the base output and of the gate matrix, and the two resident factor stacks whole, and
  stores the mix of those rows (the body module). A row of a block is a row of the array, so each point writes back its
  block of ONE function of the arrays the region finds, and the blocks tile the result. Before the region the program
  builds the gate matrix (every token's id against the adapters' numbers, converted, times the scales), which read at
  (token, adapter) is the routing gate, and changes the factors' float format, which changes no value.
-/
import proofs.«180197_j78872779424006_1_alg».proof.Proof.Gen.KernelIdeal.Value
import proofs.«180197_j78872779424006_1_alg».proof.Proof.KernelBody
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value Cert.KernelIdeal.Body Cert.Slora Cert.LibGatedLowRank

variable (m : (ℓ : Loc nD τ sig) → Buf (Elt Ideal) ℓ) (ρ : Dev nD → PrngReg)

/-! ## The arrays the region finds -/

/-- The token features. -/
abbrev xarr (c : Dev nD) : FVec Ideal S16384x4096 .f32 := V m c main_arg0
/-- The base output. -/
abbrev bsarr (c : Dev nD) : FVec Ideal S16384x4096 .f32 := V m c main_arg1
/-- The gate matrix, token by adapter. -/
abbrev garr (c : Dev nD) : FVec Ideal S16384x8 .f32 := V m c main_v9
/-- The first factors, in the narrow format. -/
abbrev aarr (c : Dev nD) : FVec Ideal S8x4096x64 .bf16 := V m c main_v10
/-- The second factors, in the narrow format. -/
abbrev barr (c : Dev nD) : FVec Ideal S8x64x4096 .bf16 := V m c main_v11

/-- The result: the mix of those arrays, gated by the gate matrix's columns. -/
abbrev result (c : Dev nD) : FVec Ideal S16384x4096 .f32 :=
  mix (xarr m c) (bsarr m c) (aarr m c) (barr m c) (fun e s => garr m c (ix2 s e))

/-! ## A block's rows are the array's -/

/-- The printed index maps over the grid: the three token windows and the output move one block of rows per point, the
    two factor stacks stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 2) = t.val ∧ win0_5.index t (1 : Fin 2) = 0 :=
  (by decide +kernel : ∀ t : Fin grid0.N, _)

/-- Row p of the feature block at point t is row 128 t + p of the features. -/
theorem xblk_apply (c : Dev nD) (t : Fin cfg0.N) (p : Fin 128) (d : Fin 4096) (s : Fin 16384)
    (hs : s.val = t.val * 128 + p.val) :
    (iblk m c 0 t : Vec Ideal S128x4096 .f32) (ix2 p d) = xarr m c (ix2 s d) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 128 + 1 * p.val = s.val; rw [e0, hs]; omega
  | ⟨1, _⟩ => show win0_0.index t (1 : Fin 2) * 4096 + 1 * d.val = d.val; rw [e1]; omega

/-- Row p of the base-output block at point t is row 128 t + p of the base output. -/
theorem bsblk_apply (c : Dev nD) (t : Fin cfg0.N) (p : Fin 128) (q : Fin 4096) (s : Fin 16384)
    (hs : s.val = t.val * 128 + p.val) :
    (iblk m c 1 t : Vec Ideal S128x4096 .f32) (ix2 p q) = bsarr m c (ix2 s q) := by
  obtain ⟨-, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 128 + 1 * p.val = s.val; rw [e0, hs]; omega
  | ⟨1, _⟩ => show win0_1.index t (1 : Fin 2) * 4096 + 1 * q.val = q.val; rw [e1]; omega

/-- Row p of the gate block at point t is row 128 t + p of the gate matrix. -/
theorem gblk_apply (c : Dev nD) (t : Fin cfg0.N) (p : Fin 128) (e : Fin 8) (s : Fin 16384)
    (hs : s.val = t.val * 128 + p.val) :
    (iblk m c 2 t : Vec Ideal S128x8 .f32) (ix2 p e) = garr m c (ix2 s e) := by
  obtain ⟨-, -, -, -, e0, e1, -⟩ := idx_facts t
  unfold iblk
  rw [View.read_apply]
  show V m c main_v9 _ = V m c main_v9 _
  refine congrArg (V m c main_v9) (funext fun a => Fin.ext ?_)
  match a with
  | ⟨0, _⟩ => show win0_2.index t (0 : Fin 2) * 128 + 1 * p.val = s.val; rw [e0, hs]; omega
  | ⟨1, _⟩ => show win0_2.index t (1 : Fin 2) * 8 + 1 * e.val = e.val; rw [e1]; omega

/-- The first factors' block is the whole stack at every point. -/
theorem ablk_apply (c : Dev nD) (t : Fin cfg0.N) (j : S8x4096x64.Idx) :
    (iblk m c 3 t : Vec Ideal S8x4096x64 .bf16) j = aarr m c j := by
  obtain ⟨-, -, -, -, -, -, e0, e1, e2, -⟩ := idx_facts t
  unfold iblk
  rw [View.read_apply]
  show V m c main_v10 _ = V m c main_v10 _
  refine congrArg (V m c main_v10) (funext fun a => Fin.ext ?_)
  match a with
  | ⟨0, _⟩ => show win0_3.index t (0 : Fin 3) * 8 + 1 * (j 0).val = (j 0).val; rw [e0]; omega
  | ⟨1, _⟩ => show win0_3.index t (1 : Fin 3) * 4096 + 1 * (j 1).val = (j 1).val; rw [e1]; omega
  | ⟨2, _⟩ => show win0_3.index t (2 : Fin 3) * 64 + 1 * (j 2).val = (j 2).val; rw [e2]; omega

/-- The second factors' block is the whole stack at every point. -/
theorem bblk_apply (c : Dev nD) (t : Fin cfg0.N) (j : S8x64x4096.Idx) :
    (iblk m c 4 t : Vec Ideal S8x64x4096 .bf16) j = barr m c j := by
  obtain ⟨-, -, -, -, -, -, -, -, -, e0, e1, e2, -⟩ := idx_facts t
  unfold iblk
  rw [View.read_apply]
  show V m c main_v11 _ = V m c main_v11 _
  refine congrArg (V m c main_v11) (funext fun a => Fin.ext ?_)
  match a with
  | ⟨0, _⟩ => show win0_4.index t (0 : Fin 3) * 8 + 1 * (j 0).val = (j 0).val; rw [e0]; omega
  | ⟨1, _⟩ => show win0_4.index t (1 : Fin 3) * 64 + 1 * (j 1).val = (j 1).val; rw [e1]; omega
  | ⟨2, _⟩ => show win0_4.index t (2 : Fin 3) * 4096 + 1 * (j 2).val = (j 2).val; rw [e2]; omega

/-- The mix of the blocks at point t, on row p, is the result on row 128 t + p. -/
theorem block_mix (c : Dev nD) (t : Fin cfg0.N) (p : Fin 128) (q : Fin 4096) (s : Fin 16384) (q' : Fin 4096)
    (hs : s.val = t.val * 128 + p.val) (hq : q'.val = q.val) :
    mixAt (T := 128) (φ₁ := .f32) (φ₂ := .bf16) (φ₃ := .bf16) (iblk m c 0 t) (iblk m c 1 t) (iblk m c 3 t) (iblk m c 4 t)
        (fun e r => (iblk m c 2 t : Vec Ideal S128x8 .f32) (ix2 r e)) p q
      = mixAt (xarr m c) (bsarr m c) (aarr m c) (barr m c) (fun e s => garr m c (ix2 s e)) s q' := by
  obtain rfl : q' = q := Fin.ext hq
  exact mixAt_rows (xarr m c) (bsarr m c) (aarr m c) (barr m c) (fun e s => garr m c (ix2 s e))
    (iblk m c 0 t : Vec Ideal S128x4096 .f32) (iblk m c 1 t : Vec Ideal S128x4096 .f32)
    (iblk m c 3 t : Vec Ideal S8x4096x64 .bf16) (iblk m c 4 t : Vec Ideal S8x64x4096 .bf16)
    (fun e r => (iblk m c 2 t : Vec Ideal S128x8 .f32) (ix2 r e)) p s
    (fun d => xblk_apply m c t p d s hs) (fun q => bsblk_apply m c t p q s hs) (fun j => ablk_apply m c t j)
    (fun j => bblk_apply m c t j) (fun e => gblk_apply m c t p e s hs) q'

/-! ## From blocks to the array -/

/-- WHAT POINT t WRITES BACK is block t of the result. -/
theorem flushed_eq (c : Dev nD) (t : Fin cfg0.N) :
    (dats m 0 c).flushed 5 t = ((cfg0.win 5).blk t).view.read (Elt Ideal) (result m c) := by
  rw [flushed5, body_eq]
  funext j
  rw [View.read_apply]
  obtain ⟨-, -, -, -, -, -, -, -, -, -, -, -, e0, e1⟩ := idx_facts t
  have hj0 : (j 0).val < 128 := (j 0).isLt
  have hj1 : (j 1).val < 4096 := (j 1).isLt
  show mixAt (T := 128) (φ₁ := .f32) (φ₂ := .bf16) (φ₃ := .bf16) (iblk m c 0 t) (iblk m c 1 t) (iblk m c 3 t) (iblk m c 4 t)
        (fun e r => (iblk m c 2 t : Vec Ideal S128x8 .f32) (ix2 r e)) ⟨(j 0).val, hj0⟩ ⟨(j 1).val, hj1⟩
      = mixAt (xarr m c) (bsarr m c) (aarr m c) (barr m c) (fun e s => garr m c (ix2 s e))
          (((cfg0.win 5).blk t).view.emb j 0) (((cfg0.win 5).blk t).view.emb j 1)
  refine block_mix m c t _ _ _ _ ?_ ?_
  · show win0_5.index t (0 : Fin 2) * 128 + 1 * (j 0).val = t.val * 128 + (j 0).val; rw [e0]; omega
  · show win0_5.index t (1 : Fin 2) * 4096 + 1 * (j 1).val = (j 1).val; rw [e1]; omega

/-- An index of the array is in point t's block iff each coordinate is in the block's range on its axis. -/
theorem mem_blk (t : Fin cfg0.N) (i : S16384x4096.Idx) :
    i ∈ ((cfg0.win 5).blk t).view.set ↔ ∀ a : Fin 2, win0_5.index t a * S128x4096.size a ≤ (i a).val
      ∧ (i a).val < win0_5.index t a * S128x4096.size a + S128x4096.size a := by
  show i ∈ ((View.whole main_v12).slice (win0_5.rect t)).set ↔ _
  rw [View.set_slice_whole, Rect.mem_set_unit]
  exact Iff.rfl

/-- THE ARRAY after the run is the result: row s lies in the block of point s / 128, and every point writes back. -/
theorem final (c : Dev nD) : (dats m 0 c).arrAt 5 cfg0.N = result m c :=
  (dats m 0 c).arrAt_eq_of_cover 5 (result m c) (fun t _ => flushed_eq m c t) fun i => by
    have hi0 : (i 0).val < 16384 := (i 0).isLt
    have hi1 : (i 1).val < 4096 := (i 1).isLt
    have hN : cfg0.N = 128 := N_0
    refine ⟨⟨(i 0).val / 128, by rw [hN]; omega⟩, flush0_5 _, ?_⟩
    obtain ⟨-, -, -, -, -, -, -, -, -, -, -, -, e0, e1⟩ := idx_facts ⟨(i 0).val / 128, by rw [hN]; omega⟩
    rw [mem_blk]
    intro a
    match a with
    | ⟨0, _⟩ =>
      show win0_5.index _ (0 : Fin 2) * 128 ≤ (i 0).val ∧ (i 0).val < win0_5.index _ (0 : Fin 2) * 128 + 128
      rw [e0]; show (i 0).val / 128 * 128 ≤ (i 0).val ∧ (i 0).val < (i 0).val / 128 * 128 + 128; omega
    | ⟨1, _⟩ =>
      show win0_5.index _ (1 : Fin 2) * 4096 ≤ (i 1).val ∧ (i 1).val < win0_5.index _ (1 : Fin 2) * 4096 + 4096
      rw [e1]; omega

/-! ## The arrays the program builds before the region -/

/-- The gate matrix at (token s, adapter e) is the routing gate of adapter e on token s. -/
theorem gates_apply (c : Dev nD) (s : Fin 16384) (e : Fin 8) :
    garr m c (ix2 s e)
      = route (m ((c : Thread nD τ).loc main_arg4)) (m ((c : Thread nD τ).loc main_arg5)) e s := by
  have h : (V m c main_v9 : S16384x8.Idx → EReal)
      = mulf (F := Ideal) (uitofp (F := Ideal) .f32
            (cmpi .eq (broadcastInDim S16384x8 ![0, 1] bcast_S16384x1_S16384x8_0_1
                (broadcastInDim S16384x1 ![0] bcast_S16384_S16384x1_0 (m ((c : Thread nD τ).loc main_arg5))))
              (broadcastInDim S16384x8 ![0, 1] bcast_S1x8_S16384x8_0_1 (broadcastInDim S1x8 ![1] bcast_S8_S1x8_1 (iotaInDim S8 32 0)))))
          (broadcastInDim S16384x8 ![0, 1] bcast_S1x8_S16384x8_0_1
            (broadcastInDim S1x8 ![1] bcast_S8_S1x8_1 (m ((c : Thread nD τ).loc main_arg4)))) := by
    dsimp only [Gen.V, Gen.hostOps0]; after_results
  show (V m c main_v9 : S16384x8.Idx → EReal) (ix2 s e) = _
  rw [h]
  exact gate_matrix_apply (T := 16384) (E := 8) _ _ _ _ _ _ _ _ s e

/-- The first factors in the narrow format are the first factors: a change of float format changes no value. -/
theorem factorsA_apply (c : Dev nD) (j : S8x4096x64.Idx) :
    aarr m c j = (m ((c : Thread nD τ).loc main_arg2) : S8x4096x64.Idx → EReal) j := by
  have h : (V m c main_v10 : S8x4096x64.Idx → EReal)
      = truncf (F := Ideal) .bf16 (m ((c : Thread nD τ).loc main_arg2)) bitsLt_bf16_f32 := by
    dsimp only [Gen.V, Gen.hostOps0]; after_results
  show (V m c main_v10 : S8x4096x64.Idx → EReal) j = _
  rw [h]; rfl

/-- The second factors likewise. -/
theorem factorsB_apply (c : Dev nD) (j : S8x64x4096.Idx) :
    barr m c j = (m ((c : Thread nD τ).loc main_arg3) : S8x64x4096.Idx → EReal) j := by
  have h : (V m c main_v11 : S8x64x4096.Idx → EReal)
      = truncf (F := Ideal) .bf16 (m ((c : Thread nD τ).loc main_arg3)) bitsLt_bf16_f32 := by
    dsimp only [Gen.V, Gen.hostOps0]; after_results
  show (V m c main_v11 : S8x64x4096.Idx → EReal) j = _
  rw [h]; rfl

/-- THE RESULT in terms of the argument arrays: their mix under the routing gate. -/
theorem result_eq (c : Dev nD) :
    result m c = mix (φ₁ := .f32) (φ₂ := .f32) (φ₃ := .f32) (m ((c : Thread nD τ).loc main_arg0)) (m ((c : Thread nD τ).loc main_arg1))
      (m ((c : Thread nD τ).loc main_arg2)) (m ((c : Thread nD τ).loc main_arg3))
      (route (m ((c : Thread nD τ).loc main_arg4)) (m ((c : Thread nD τ).loc main_arg5))) := by
  funext i
  show mixAt (xarr m c) (bsarr m c) (aarr m c) (barr m c) (fun e s => garr m c (ix2 s e)) (i 0) (i 1) = mixAt _ _ _ _ _ (i 0) (i 1)
  exact mixAt_rows (φ₁ := .f32) (φ₂ := .f32) (φ₃ := .f32) (m ((c : Thread nD τ).loc main_arg0)) (m ((c : Thread nD τ).loc main_arg1))
    (m ((c : Thread nD τ).loc main_arg2)) (m ((c : Thread nD τ).loc main_arg3))
    (route (m ((c : Thread nD τ).loc main_arg4)) (m ((c : Thread nD τ).loc main_arg5)))
    (xarr m c) (bsarr m c) (aarr m c) (barr m c) (fun e s => garr m c (ix2 s e)) (i 0) (i 0)
    (fun d => congrFun (V_main_arg0 m c) _) (fun q => congrFun (V_main_arg1 m c) _)
    (fun j => factorsA_apply m c j) (fun j => factorsB_apply m c j) (fun e => gates_apply m c (i 0) e) (i 1)

/-! ## The run, read -/

/-- Every weakly fair execution of the kernel's program terminates with the result array at the mix of the argument
    arrays under the routing gate, and the arguments unchanged. -/
theorem run : θ_run defs (onTc (τ := τ) (main (F := Ideal))) ⟨m, fun _ => 0, ρ⟩ fun r => ∀ c : Dev nD,
      r.2.mem ((c : Thread nD τ).loc main_v12)
        = mix (φ₁ := .f32) (φ₂ := .f32) (φ₃ := .f32) (m ((c : Thread nD τ).loc main_arg0)) (m ((c : Thread nD τ).loc main_arg1))
            (m ((c : Thread nD τ).loc main_arg2)) (m ((c : Thread nD τ).loc main_arg3))
            (route (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (result_eq m c)), (h c).2⟩)
    (run_blocks m ρ)

end Cert.KernelIdeal.Hand

end
-- ==== Proof.RefValue.lean ====
/-
  The reference's result array, read at an index: it is the specification's mix of the argument arrays under the routing
  gate. The reference adds the eight adapters' terms onto the base output one at a time, in the specification's order;
  each term is the host's spelling of one gated low-rank update, with the adapter's factors and scale cut out of the
  stacks by unit-thick slices and the routing indicator a compare of the ids with the adapter's number.
-/
import proofs.«180197_j78872779424006_1_alg».proof.Proof.Gen.ReferenceIdeal.Run
import proofs.«180197_j78872779424006_1_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Value Cert.Slora Cert.LibGatedLowRank

/-- One adapter's term of the reference, at token t and output feature o, is the specification's update under the
    routing gate: the slices at offset e select adapter e's factors and scale, and the constant compared with the ids
    is e. -/
theorem term_apply (x : FVec Ideal S16384x4096 .f32) (A : FVec Ideal S8x4096x64 .f32) (B : FVec Ideal S8x64x4096 .f32)
    (scal : FVec Ideal S8 .f32) (ids : IVec S16384 32) (e : Fin 8)
    (hsA : S8x4096x64.Slices ![e.val, 0, 0] S1x4096x64) (hsB : S8x64x4096.Slices ![e.val, 0, 0] S1x64x4096)
    (hsS : S8.Slices ![e.val] S1) (t : Fin 16384) (o : Fin 4096) :
    mulf (Host.dotGeneral dot_S16384x64_S64x4096_S16384x4096_1_0_0_1_n_n none
            (Host.dotGeneral dot_S16384x4096_S4096x64_S16384x64_1_0_0_1_n_n none x
              (shapeCast S4096x64 (extractStridedSlice S1x4096x64 ![e.val, 0, 0] A hsA) shapeCasts_S1x4096x64_S4096x64))
            (shapeCast S64x4096 (extractStridedSlice S1x64x4096 ![e.val, 0, 0] B hsB) shapeCasts_S1x64x4096_S64x4096))
         (broadcastInDim S16384x4096 ![0, 1] bcast_S16384x1_S16384x4096_0_1
            (broadcastInDim S16384x1 ![0] bcast_S16384_S16384x1_0
              (mulf (uitofp (F := Ideal) .f32 (cmpi .eq ids (broadcastInDim S16384 ![] bcast_S_S16384 (constantI S_ 32 (BitVec.ofNat 32 e.val)))))
                (broadcastInDim S16384 ![] bcast_S_S16384 (shapeCast S_ (extractStridedSlice S1 ![e.val] scal hsS) shapeCasts_S1_S_)))))
         (ix2 t o)
      = update x A B (route scal ids) e t o := by
  refine (host_term_apply (T := 16384) (K := 4096) (R := 64) (N := 4096) (E := 8) x A B _ e _ rfl hsA _ _ rfl hsB _ _ _ t o).trans ?_
  unfold update route
  congr 1
  exact host_gate_apply scal ids _ e _ rfl hsS _ _ _ t

/-- Adding equals to equals. -/
private theorem add_both {a a' b b' : EReal} (h1 : a = a') (h2 : b = b') : a + b = a' + b' := by rw [h1, h2]

/-- THE REFERENCE'S RESULT is the mix of the argument arrays under the routing gate. -/
theorem result_eq (m : (ℓ : Loc nD τ sig) → Buf (Elt Ideal) ℓ) (c : Dev nD) :
    res_main_v135 (F := Ideal) m c
      = mix (φ₁ := .f32) (φ₂ := .f32) (φ₃ := .f32) (m ((c.tc : Thread nD τ).loc main_arg0)) (m ((c.tc : Thread nD τ).loc main_arg1))
          (m ((c.tc : Thread nD τ).loc main_arg2)) (m ((c.tc : Thread nD τ).loc main_arg3))
          (route (m ((c.tc : Thread nD τ).loc main_arg4)) (m ((c.tc : Thread nD τ).loc main_arg5))) := by
  funext i
  obtain ⟨t, o, rfl⟩ : ∃ (t : Fin 16384) (o : Fin 4096), i = ix2 t o := ⟨i 0, i 1, eq_ix2 i⟩
  unfold res_main_v135 mix mixAt
  simp only [addf_apply]
  refine add_both (add_both (add_both (add_both (add_both (add_both (add_both (add_both rfl ?_) ?_) ?_) ?_) ?_) ?_) ?_) ?_
  · exact term_apply _ _ _ _ _ 0 _ _ _ t o
  · exact term_apply _ _ _ _ _ 1 _ _ _ t o
  · exact term_apply _ _ _ _ _ 2 _ _ _ t o
  · exact term_apply _ _ _ _ _ 3 _ _ _ t o
  · exact term_apply _ _ _ _ _ 4 _ _ _ t o
  · exact term_apply _ _ _ _ _ 5 _ _ _ t o
  · exact term_apply _ _ _ _ _ 6 _ _ _ t o
  · exact term_apply _ _ _ _ _ 7 _ _ _ t o

end Cert.ReferenceIdeal.RefValue

end
-- ==== Proof.lean ====
/-
  Multi-adapter low-rank updates with per-token routing: both programs compute, at token t and output feature o,

      base(t, o) + ∑ over adapters e = 0, …, 7 in that order of ( (x(t, ·) · A[e]) · B[e] )(o) · gate(e, t),

  gate(e, t) being adapter e's scale when token t's id is e and zero times that scale otherwise (Proof/Spec.lean).
  The kernel tiles the tokens in 128 blocks of 128 rows, keeps both factor stacks resident in a narrower float format
  and reads the gates from a token-by-adapter matrix the program builds before the launch; the reference loops over the
  adapters on whole arrays, slicing each adapter's factors and scale out of the stacks. On the extended reals a change of
  float format is the identity and a product accumulated into zero is the plain product, so the two sides are the same
  sums added in the same order, and no algebraic law beyond the definitions — hence no finiteness — is needed.
  The kernel's idealization rewrote no operation, so nothing is owed for it.
-/
import proofs.«180197_j78872779424006_1_alg».proof.Defs
import proofs.«180197_j78872779424006_1_alg».proof.Proof.Gen.Kernel
import proofs.«180197_j78872779424006_1_alg».proof.Proof.Gen.Kernel.Skeleton
import proofs.«180197_j78872779424006_1_alg».proof.Proof.Gen.Kernel.Launch
import proofs.«180197_j78872779424006_1_alg».proof.Proof.Gen.Kernel.Points
import proofs.«180197_j78872779424006_1_alg».proof.Proof.Gen.Kernel.Frame
import proofs.«180197_j78872779424006_1_alg».proof.Proof.Gen.KernelIdeal
import proofs.«180197_j78872779424006_1_alg».proof.Proof.Gen.KernelIdeal.Skeleton
import proofs.«180197_j78872779424006_1_alg».proof.Proof.Gen.KernelIdeal.Launch
import proofs.«180197_j78872779424006_1_alg».proof.Proof.Gen.KernelIdeal.Points
import proofs.«180197_j78872779424006_1_alg».proof.Proof.Gen.KernelIdeal.Frame
import proofs.«180197_j78872779424006_1_alg».proof.Proof.Gen.ReferenceIdeal
import proofs.«180197_j78872779424006_1_alg».proof.Proof.Gen.Pre_finite_inputs
import proofs.«180197_j78872779424006_1_alg».proof.Proof.Gen.KernelIdeal.Value
import proofs.«180197_j78872779424006_1_alg».proof.Proof.Gen.ReferenceIdeal.Run
import proofs.«180197_j78872779424006_1_alg».proof.Proof.KernelValue
import proofs.«180197_j78872779424006_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at the specification's mix of the
    arguments under the routing gate. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.RefValue.result_eq, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
